-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 5
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .bf16⟩
  | .hbm, ⟨4, _⟩ => ⟨S10000x128, .f32⟩
  | .local _ .vmem, ⟨0, _⟩ => ⟨S10000x128, .bf16⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .bf16 = 32 ∨ (Rect.block (s := S10000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnAlgebra.lean ====
import Idealize.ShloMosaic.PureOps.Ideal
import Idealize.ShloMosaic.Lib.ValueIdx

/-!
# A graph-convolution layer on the extended reals: `relu(A · (x · W))` and `relu((A · x) · W)`

For `x : [10000, 128]`, `A : [10000, 10000]` and `W : [128, 128]` the layer's entry `(p, q)` is
`max (∑ j, A[p, j] · ∑ k, x[j, k] · W[k, q]) 0` when the features are transformed first, and
`max (∑ k, (∑ j, A[p, j] · x[j, k]) · W[k, q]) 0` when the neighbourhood is aggregated first. The two are the same number
when every entry is a real: matrix multiplication is associative. On the extended reals it is not (a product with an
infinity does not distribute over a sum of both signs), so the law is stated for arrays whose entries are reals.
-/

noncomputable section

namespace Cert.Gcn

open Idealize.ShloMosaic Idealize.ShloMosaic.ValueIdx

/-! ## Sums of reals inside the extended reals -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the matrix product, one row of the left factor and one column of the right factor at a time:
    `∑ k, (∑ j, a[j] · x[j, k]) · w[k] = ∑ j, a[j] · ∑ k, x[j, k] · w[k]` for real entries. In the reals both sides are the
    double sum of `a[j] · x[j, k] · w[k]`, in the two orders of summation. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose ar har using ha
  choose xr hxr using hx
  choose wr hwr using hw
  simp only [har, hxr, hwr, ← EReal.coe_mul, ← coe_sum]
  refine congrArg _ ?_
  simp only [Finset.sum_mul, Finset.mul_sum]
  rw [Finset.sum_comm]
  exact Finset.sum_congr rfl fun j _ => Finset.sum_congr rfl fun k _ => mul_assoc _ _ _

/-! ## The layer, entry by entry -/

/-- Features transformed first: `relu(A · (x · W))` at entry `i = (p, q)`. -/
def transformFirst (x : FVec Ideal ⟨2, ![10000, 128]⟩ .f32) (a : FVec Ideal ⟨2, ![10000, 10000]⟩ .f32)
    (w : FVec Ideal ⟨2, ![128, 128]⟩ .f32) : FVec Ideal ⟨2, ![10000, 128]⟩ .f32 :=
  fun i => max (∑ j : Fin 10000, a (ix2 (i 0) j) * ∑ k : Fin 128, x (ix2 j k) * w (ix2 k (i 1))) 0

/-- Neighbourhood aggregated first: `relu((A · x) · W)` at entry `i = (p, q)`. -/
def aggregateFirst (x : FVec Ideal ⟨2, ![10000, 128]⟩ .f32) (a : FVec Ideal ⟨2, ![10000, 10000]⟩ .f32)
    (w : FVec Ideal ⟨2, ![128, 128]⟩ .f32) : FVec Ideal ⟨2, ![10000, 128]⟩ .f32 :=
  fun i => max (∑ k : Fin 128, (∑ j : Fin 10000, a (ix2 (i 0) j) * x (ix2 j k)) * w (ix2 k (i 1))) 0

/-- On arrays of reals the two orders give the same layer. -/
theorem aggregateFirst_eq_transformFirst (x : FVec Ideal ⟨2, ![10000, 128]⟩ .f32)
    (a : FVec Ideal ⟨2, ![10000, 10000]⟩ .f32) (w : FVec Ideal ⟨2, ![128, 128]⟩ .f32)
    (hx : ∀ i, ∃ r : ℝ, x i = r) (ha : ∀ i, ∃ r : ℝ, a i = r) (hw : ∀ i, ∃ r : ℝ, w i = r) :
    aggregateFirst x a w = transformFirst x a w := by
  funext i
  unfold aggregateFirst transformFirst
  exact congrArg (max · 0) (sum_mul_sum_assoc (fun j : Fin 10000 => a (ix2 (i 0) j))
    (fun (j : Fin 10000) (k : Fin 128) => x (ix2 j k)) (fun k : Fin 128 => w (ix2 k (i 1)))
    (fun j => ha _) (fun j k => hx _) (fun k => hw _))

end Cert.Gcn

end
-- ==== Proof.FiniteInputs.lean ====
import proofs.«107528_g33036888441476_cont_sun_m_698_8_alg».proof.Pre_finite_inputs
import Idealize.ShloMosaic.Lib.ReduceAll
import Idealize.ShloMosaic.Lib.ValueIdx
import Idealize.ShloMosaic.PureOps.Ideal

/-!
# The precondition read back: every entry of every input is a real

The precondition is `jnp.all(|x| < +inf) & jnp.all(|a| < +inf) & jnp.all(|conv_w| < +inf)`. On the extended reals
`|v| = max v (-v)` is below `+inf` exactly when `v` is neither infinity, that is, when `v` is a real.
-/

noncomputable section

namespace Cert.Gcn

open Idealize.ShloMosaic

/-- The scalar shape has one index. -/
instance : Subsingleton Cert.Pre_finite_inputs.S_.Idx := ⟨fun a b => funext fun d => d.elim0⟩

/-- The pattern `0x7F800000` is `+inf`. -/
theorem ofBits_inf : Ideal.ofBits .f32 0x7F800000#32 = (⊤ : EReal) := by
  simp [Ideal.ofBits, Ideal.ieee]

/-- An extended real whose absolute value compares below `+inf` is a real. -/
theorem real_of_abs_lt (v : EReal) (h : Ideal.cmp .olt (max v (-v)) (Ideal.ofBits .f32 0x7F800000#32) = 1#1) :
    ∃ r : ℝ, v = r := by
  rw [ofBits_inf] at h
  induction v using EReal.rec with
  | bot => simp [Ideal.cmp] at h
  | coe r => exact ⟨r, rfl⟩
  | top => simp [Ideal.cmp] at h

/-- Under the precondition every entry of `x`, of `a` and of `conv_w` is a real. -/
theorem reals_of_pre [Cert.Pre_finite_inputs.Facts] (x : FVec Ideal Cert.Pre_finite_inputs.S10000x128 .f32)
    (a : FVec Ideal Cert.Pre_finite_inputs.S10000x10000 .f32) (w : FVec Ideal Cert.Pre_finite_inputs.S128x128 .f32)
    (h : Cert.Pre_finite_inputs.fn (F := Ideal) x a w = fun _ => 1#1) :
    (∀ i, ∃ r : ℝ, x i = r) ∧ (∀ i, ∃ r : ℝ, a i = r) ∧ (∀ i, ∃ r : ℝ, w i = r) := by
  have h0 := congrFun h ValueIdx.ix0
  dsimp only [Cert.Pre_finite_inputs.fn] at h0
  obtain ⟨hxa, hw⟩ := IntOp.andi_eq_one.1 h0
  obtain ⟨hx, ha⟩ := IntOp.andi_eq_one.1 hxa
  refine ⟨fun i => real_of_abs_lt _ (Host.reduce_andi_all _ _ _ _ _ hx i),
    fun i => real_of_abs_lt _ (Host.reduce_andi_all _ _ _ _ _ ha i),
    fun i => real_of_abs_lt _ (Host.reduce_andi_all _ _ _ _ _ hw i)⟩

end Cert.Gcn

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.KernelBody.lean ====
import proofs.«107528_g33036888441476_cont_sun_m_698_8_alg».proof.Proof.Gen.KernelIdeal.Skeleton
import proofs.«107528_g33036888441476_cont_sun_m_698_8_alg».proof.Proof.LibContract
import Idealize.ShloMosaic.Lib.Pipeline.Value
import Idealize.ShloMosaic.Lib.ValueIdx
import Idealize.ShloMosaic.PureOps.Ideal.Laws

/-!
# One grid point's arithmetic, entry by entry

A grid point holds a tile `a` of 400 rows of the adjacency matrix, all of `x` and all of `W`. It contracts the tile
with `x`, the result with `W`, and clamps at zero: entry `(p, q)` of what it stores is
`max (∑ k, (∑ j, a[p, j] · x[j, k]) · W[k, q]) 0`. The change of `a`'s format before the first product and the cast of
`x` to its own shape are the identity on the extended reals.
-/

noncomputable section

namespace Cert.KernelIdeal.Body

open Cert.KernelIdeal Cert.KernelIdeal.Gen Idealize.ShloMosaic Idealize.ShloMosaic.ValueIdx

/-- The first product, `tile · x`, at an entry. -/
theorem tile_x_apply (a : FVec Ideal S400x10000 .bf16) (x : FVec Ideal S10000x128 .bf16) (p : Fin 400) (k : Fin 128) :
    matmul dot_S400x10000_S10000x128_S400x128_1_0_0_1_n_n none a x (constant (F := Ideal) S400x128 .f32 0x00000000#32) (ix2 p k)
      = ∑ j : Fin 10000, a (ix2 p j) * x (ix2 j k) :=
  Cert.LibDense.matmul_plain_zero_apply 400 10000 128 none a x p k

/-- The second product, `(tile · x) · W`, at an entry. -/
theorem ax_w_apply (y : FVec Ideal S400x128 .f32) (w : FVec Ideal S128x128 .f32) (p : Fin 400) (q : Fin 128) :
    matmul dot_S400x128_S128x128_S400x128_1_0_0_1_n_n none y w (constant (F := Ideal) S400x128 .f32 0x00000000#32) (ix2 p q)
      = ∑ k : Fin 128, y (ix2 p k) * w (ix2 k q) :=
  Cert.LibDense.matmul_plain_zero_apply 400 128 128 none y w p q

/-- What a grid point stores, at entry `(p, q)` of its tile. -/
theorem tile_apply (a : Vec Ideal S400x10000 .f32) (x : Vec Ideal S10000x128 .bf16) (w : Vec Ideal S128x128 .f32)
    (p : Fin 400) (q : Fin 128) :
    k0_pay1 (F := Ideal) a x w (ix2 p q)
      = max (∑ k : Fin 128, (∑ j : Fin 10000, a (ix2 p j) * x (ix2 j k)) * w (ix2 k q)) 0 := by
  unfold k0_pay1
  rw [maximumf_apply, broadcast_apply, ax_w_apply]
  simp only [tile_x_apply, truncf_apply, shapeCast_self]
  rw [Ideal.ofBits_def, Ideal.ofBits_zero_f32]

end Cert.KernelIdeal.Body

end
-- ==== Proof.KernelValue.lean ====
import proofs.«107528_g33036888441476_cont_sun_m_698_8_alg».proof.Proof.Gen.KernelIdeal.Value
import proofs.«107528_g33036888441476_cont_sun_m_698_8_alg».proof.Proof.KernelBody
import proofs.«107528_g33036888441476_cont_sun_m_698_8_alg».proof.Proof.GcnAlgebra
import Idealize.ShloMosaic.Lib.Pipeline.Value
import Idealize.ShloMosaic.Lib.StableHlo.Run
import Idealize.ShloMosaic.Lib.Tactic

/-!
# The kernel's result array: `relu((A · x) · W)`, 400 rows at a grid point

Grid point `t` of 25 reads rows `400 t … 400 t + 399` of the adjacency matrix, all of `x` (in the format the host changed
it to, the same extended reals) and all of `W`, and writes rows `400 t … 400 t + 399` of the result. The 25 row tiles
cover the result, so it ends holding the aggregate-first layer of the three arguments.
-/

noncomputable section

open Idealize.ShloMosaic Idealize.ShloMosaic.TcCoe Idealize.SL.Sem
open Idealize.ShloMosaic.Pipeline (Dat)

namespace Cert.KernelIdeal.Layer

open Cert.KernelIdeal Cert.KernelIdeal.Gen Cert.KernelIdeal.Value Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The block indices over the grid: `x` and `W` stay at block (0, 0); the adjacency tile and the result tile are
    row block `t`. -/
theorem block_indices : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The host's change of format leaves `x`'s extended reals as launched. -/
theorem x_staged (c : Dev nD) :
    (V m c main_v0 : S10000x128.Idx → EReal) = (m ((c : Thread nD τ).loc main_arg0) : S10000x128.Idx → EReal) := by
  dsimp only [V, hostOps0]
  after_results
  rfl

/-- The window on `x` holds all of `x` at every point. -/
theorem x_block_apply (c : Dev nD) (t : Fin cfg0.N) (z : S10000x128.Idx) :
    (iblk m c 0 t : Vec Ideal S10000x128 .bf16) z = (m ((c : Thread nD τ).loc main_arg0) : S10000x128.Idx → EReal) z := by
  obtain ⟨e0, e1, -⟩ := block_indices t
  unfold iblk
  rw [View.read_apply]
  show V m c main_v0 _ = _
  rw [x_staged]
  congr 1
  funext a
  apply Fin.ext
  match a with
  | ⟨0, _⟩ => show win0_0.index t (0 : Fin 2) * 10000 + 1 * (z 0).val = (z 0).val; rw [e0]; omega
  | ⟨1, _⟩ => show win0_0.index t (1 : Fin 2) * 128 + 1 * (z 1).val = (z 1).val; rw [e1]; omega

/-- The window on `W` holds all of `W` at every point. -/
theorem w_block_apply (c : Dev nD) (t : Fin cfg0.N) (z : S128x128.Idx) :
    (iblk m c 2 t : Vec Ideal S128x128 .f32) z = (m ((c : Thread nD τ).loc main_arg2) : S128x128.Idx → EReal) z := by
  obtain ⟨-, -, -, -, e0, e1, -⟩ := block_indices t
  unfold iblk
  rw [View.read_apply]
  show V m c main_arg2 _ = _
  rw [V_main_arg2]
  congr 1
  funext a
  apply Fin.ext
  match a with
  | ⟨0, _⟩ => show win0_2.index t (0 : Fin 2) * 128 + 1 * (z 0).val = (z 0).val; rw [e0]; omega
  | ⟨1, _⟩ => show win0_2.index t (1 : Fin 2) * 128 + 1 * (z 1).val = (z 1).val; rw [e1]; omega

/-- The window on the adjacency matrix holds rows `400 t … 400 t + 399` at point `t`. -/
theorem a_block_apply (c : Dev nD) (t : Fin cfg0.N) (p : Fin 400) (j : Fin 10000) (r : Fin 10000)
    (hr : r.val = 400 * t.val + p.val) :
    (iblk m c 1 t : Vec Ideal S400x10000 .f32) (ix2 p j)
      = (m ((c : Thread nD τ).loc main_arg1) : S10000x10000.Idx → EReal) (ix2 r j) := by
  obtain ⟨-, -, e0, e1, -⟩ := block_indices t
  unfold iblk
  rw [View.read_apply]
  show V m c main_arg1 _ = _
  rw [V_main_arg1]
  congr 1
  funext a
  apply Fin.ext
  match a with
  | ⟨0, _⟩ => show win0_1.index t (0 : Fin 2) * 400 + 1 * p.val = r.val; rw [e0, hr]; omega
  | ⟨1, _⟩ => show win0_1.index t (1 : Fin 2) * 10000 + 1 * j.val = j.val; rw [e1]; omega

/-- What a grid point stores at entry `y` of its tile is the aggregate-first layer at the entry `i` of the result that
    the tile's entry lands on: `i`'s row is `400 t` plus `y`'s, its column `y`'s. -/
theorem tile_entry (c : Dev nD) (t : Fin cfg0.N) (y : S400x128.Idx) (i : S10000x128.Idx)
    (h0 : (i 0).val = 400 * t.val + (y 0).val) (h1 : (i 1).val = (y 1).val) :
    k0_pay1 (F := Ideal) (iblk m c 1 t) (iblk m c 0 t) (iblk m c 2 t) y
      = Cert.Gcn.aggregateFirst (m ((c : Thread nD τ).loc main_arg0)) (m ((c : Thread nD τ).loc main_arg1))
          (m ((c : Thread nD τ).loc main_arg2)) i := by
  obtain ⟨p, q, rfl⟩ : ∃ (p : Fin 400) (q : Fin 128), y = ix2 p q := ⟨y 0, y 1, eq_ix2 y⟩
  refine (Cert.KernelIdeal.Body.tile_apply (iblk m c 1 t) (iblk m c 0 t) (iblk m c 2 t) p q).trans ?_
  unfold Cert.Gcn.aggregateFirst
  have hq : i 1 = q := Fin.ext h1
  rw [hq]
  refine congrArg (max · 0) (Finset.sum_congr rfl fun k _ => ?_)
  rw [w_block_apply]
  refine congrArg (· * _) (Finset.sum_congr rfl fun j _ => ?_)
  rw [x_block_apply, a_block_apply m c t p j (i 0) h0]

/-- The layer the kernel computes, of the three arguments as launched. -/
abbrev layer (c : Dev nD) : Buf (Elt Ideal) ((c : Thread nD τ).loc main_v1) :=
  Cert.Gcn.aggregateFirst (m ((c : Thread nD τ).loc main_arg0)) (m ((c : Thread nD τ).loc main_arg1))
    (m ((c : Thread nD τ).loc main_arg2))

/-- What point `t` writes back is row tile `t` of the layer. -/
theorem flushed_eq (c : Dev nD) (t : Fin cfg0.N) :
    (dats m 0 c).flushed 3 t = ((cfg0.win 3).blk t).view.read (Elt Ideal) (layer m c) := by
  obtain ⟨-, -, -, -, -, -, e0, e1⟩ := block_indices t
  rw [flushed3]
  unfold out0_3
  rw [View.canon_unit_zero zero_offsets]
  simp only [View.ld_unit_zero (S := S400x10000) zero_offsets, View.ld_unit_zero (S := S10000x128) zero_offsets,
    View.ld_unit_zero (S := S128x128) zero_offsets]
  funext y
  show k0_pay1 (F := Ideal) (iblk m c 1 t) (iblk m c 0 t) (iblk m c 2 t) y = layer m c (((cfg0.win 3).blk t).view.emb y)
  refine tile_entry m c t y _ ?_ ?_
  · show win0_3.index t (0 : Fin 2) * 400 + 1 * (y 0).val = _; rw [e0]; omega
  · show win0_3.index t (1 : Fin 2) * 128 + 1 * (y 1).val = _; rw [e1]; omega

/-- An index of the result is in point `t`'s tile iff each coordinate is in the tile's range on its axis. -/
theorem mem_tile (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v1).slice (win0_3.rect t)).set ↔ _
  rw [View.set_slice_whole, Rect.mem_set_unit]
  exact Iff.rfl

/-- Row `r` of the result is in the tile of point `r / 400`. -/
theorem covered (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨-, -, -, -, -, -, e0, e1⟩ := block_indices t
  have ht : t.val = (i 0).val / 400 := rfl
  refine ⟨t, flush0_3 t, ?_⟩
  rw [mem_tile]
  intro a
  match a with
  | ⟨0, _⟩ => show win0_3.index t (0 : Fin 2) * 400 ≤ (i 0).val ∧ (i 0).val < win0_3.index t (0 : Fin 2) * 400 + 400; rw [e0, ht]; omega
  | ⟨1, _⟩ => show win0_3.index t (1 : Fin 2) * 128 ≤ (i 1).val ∧ (i 1).val < win0_3.index t (1 : Fin 2) * 128 + 128; rw [e1]; omega

/-- The result array after the run is the layer. -/
theorem final (c : Dev nD) : (dats m 0 c).arrAt 3 cfg0.N = layer m c :=
  (dats m 0 c).arrAt_eq_of_cover 3 (layer m c) (fun t _ => flushed_eq m c t) covered

/-- The kernel's run, read: the result at the aggregate-first layer of the arguments, the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Layer

end
-- ==== Proof.ReferenceValue.lean ====
import proofs.«107528_g33036888441476_cont_sun_m_698_8_alg».proof.Proof.Gen.ReferenceIdeal.Read
import proofs.«107528_g33036888441476_cont_sun_m_698_8_alg».proof.Proof.GcnAlgebra
import Idealize.ShloMosaic.PureOps.Ideal.Laws
import Idealize.ShloMosaic.Lib.ValueIdx

/-!
# The reference's result array: `relu(A · (x · W))`

The reference multiplies `x` by `W`, the adjacency matrix by the product, and clamps at zero against a zero splat:
entry `(p, q)` is `max (∑ j, A[p, j] · ∑ k, x[j, k] · W[k, q]) 0`, the transform-first layer.
-/

noncomputable section

namespace Cert.ReferenceIdeal.Layer

open Cert.ReferenceIdeal Cert.ReferenceIdeal.Read Idealize.ShloMosaic Idealize.ShloMosaic.ValueIdx

/-! The operand indices of the two products, as pairs of coordinates. -/

theorem x_index (p : Fin 10000) (q k : Fin 128) : lidx_main_v0 (ix2 p q) k = ix2 p k :=
  funext fun a => Fin.ext (by match a with | ⟨0, _⟩ => rfl | ⟨1, _⟩ => rfl)

theorem w_index (p : Fin 10000) (q k : Fin 128) : ridx_main_v0 (ix2 p q) k = ix2 k q :=
  funext fun a => Fin.ext (by match a with | ⟨0, _⟩ => rfl | ⟨1, _⟩ => rfl)

theorem a_index (p : Fin 10000) (q : Fin 128) (j : Fin 10000) : lidx_main_v1 (ix2 p q) j = ix2 p j :=
  funext fun a => Fin.ext (by match a with | ⟨0, _⟩ => rfl | ⟨1, _⟩ => rfl)

theorem xw_index (p : Fin 10000) (q : Fin 128) (j : Fin 10000) : ridx_main_v1 (ix2 p q) j = ix2 j q :=
  funext fun a => Fin.ext (by match a with | ⟨0, _⟩ => rfl | ⟨1, _⟩ => rfl)

/-- The reference's last stage is the transform-first layer of its three arguments. -/
theorem result_eq (x : FVec Ideal S10000x128 .f32) (a : FVec Ideal S10000x10000 .f32) (w : FVec Ideal S128x128 .f32) :
    val_main_v2 (F := Ideal) x a w = Cert.Gcn.transformFirst x a w := by
  funext i
  obtain ⟨p, q, rfl⟩ : ∃ (p : Fin 10000) (q : Fin 128), i = ix2 p q := ⟨i 0, i 1, eq_ix2 i⟩
  rw [val_main_v2_apply, val_main_v1_apply, val_main_call0_v0_apply, val_main_call0_cst_apply]
  rw [Ideal.maximumf_def, Ideal.ofBits_def, Ideal.ofBits_zero_f32]
  show _ = max (∑ j : Fin 10000, a (ix2 p j) * ∑ k : Fin 128, x (ix2 j k) * w (ix2 k q)) 0
  refine congrArg (max · 0) (Finset.sum_congr rfl fun j _ => ?_)
  rw [val_main_v0_apply, a_index, xw_index]
  refine congrArg (_ * ·) (Finset.sum_congr rfl fun k _ => ?_)
  rw [x_index, w_index]

end Cert.ReferenceIdeal.Layer

end
-- ==== Proof.lean ====
/-
  A graph-convolution layer over x : [10000, 128], A : [10000, 10000], W : [128, 128].

  The kernel walks 25 row tiles of A (400 rows each), keeps x and W whole, and at each tile computes
  relu((A_tile · x) · W): entry (p, q) of the result is max (∑ k, (∑ j, A[p, j] · x[j, k]) · W[k, q]) 0.
  The reference computes relu(A · (x · W)): entry (p, q) is max (∑ j, A[p, j] · ∑ k, x[j, k] · W[k, q]) 0.
  On the extended reals a change of float format is the identity and both matrix products are plain sums of products,
  so the two results differ only in the order of the two contractions. Matrix multiplication is associative on the
  reals; on the extended reals it is not (a product with an infinity does not distribute over a sum), which is where
  the precondition is used: every entry of x, A and W is a real.

  The pieces: Proof/GcnAlgebra.lean (the two layers and the associativity law on arrays of reals),
  Proof/FiniteInputs.lean (the precondition read back: every entry is a real), Proof/LibContract.lean (a rank-2
  contraction at an entry), Proof/KernelBody.lean (one tile's arithmetic at an entry), Proof/KernelValue.lean (the 25 tiles
  cover the result: the kernel's result array is the aggregate-first layer), Proof/ReferenceValue.lean (the reference's
  result array is the transform-first layer). The kernel's idealization rewrote no operation, so there is nothing to
  preserve beyond the text itself.
-/
import proofs.«107528_g33036888441476_cont_sun_m_698_8_alg».proof.Defs
import proofs.«107528_g33036888441476_cont_sun_m_698_8_alg».proof.Proof.Gen.Kernel
import proofs.«107528_g33036888441476_cont_sun_m_698_8_alg».proof.Proof.Gen.Kernel.Skeleton
import proofs.«107528_g33036888441476_cont_sun_m_698_8_alg».proof.Proof.Gen.Kernel.Launch
import proofs.«107528_g33036888441476_cont_sun_m_698_8_alg».proof.Proof.Gen.Kernel.Points
import proofs.«107528_g33036888441476_cont_sun_m_698_8_alg».proof.Proof.Gen.Kernel.Frame
import proofs.«107528_g33036888441476_cont_sun_m_698_8_alg».proof.Proof.Gen.KernelIdeal
import proofs.«107528_g33036888441476_cont_sun_m_698_8_alg».proof.Proof.Gen.KernelIdeal.Skeleton
import proofs.«107528_g33036888441476_cont_sun_m_698_8_alg».proof.Proof.Gen.KernelIdeal.Launch
import proofs.«107528_g33036888441476_cont_sun_m_698_8_alg».proof.Proof.Gen.KernelIdeal.Points
import proofs.«107528_g33036888441476_cont_sun_m_698_8_alg».proof.Proof.Gen.KernelIdeal.Frame
import proofs.«107528_g33036888441476_cont_sun_m_698_8_alg».proof.Proof.Gen.ReferenceIdeal
import proofs.«107528_g33036888441476_cont_sun_m_698_8_alg».proof.Proof.Gen.Pre_finite_inputs
import proofs.«107528_g33036888441476_cont_sun_m_698_8_alg».proof.Proof.Gen.KernelIdeal.Value
import proofs.«107528_g33036888441476_cont_sun_m_698_8_alg».proof.Proof.Gen.ReferenceIdeal.Run
import proofs.«107528_g33036888441476_cont_sun_m_698_8_alg».proof.Proof.Gen.ReferenceIdeal.Read
import proofs.«107528_g33036888441476_cont_sun_m_698_8_alg».proof.Proof.GcnAlgebra
import proofs.«107528_g33036888441476_cont_sun_m_698_8_alg».proof.Proof.FiniteInputs
import proofs.«107528_g33036888441476_cont_sun_m_698_8_alg».proof.Proof.KernelValue
import proofs.«107528_g33036888441476_cont_sun_m_698_8_alg».proof.Proof.ReferenceValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the transform-first layer of the launched arguments: the reference by its own text, the
    kernel because its aggregate-first layer is the same array when every entry of the arguments is a real, which the
    precondition says. -/
theorem algebraic : Cert.algebraic_KernelIdeal_ReferenceIdeal := by
  intro m ρ m' ρ' hpre hagree
  refine ⟨fun c => Cert.Gcn.transformFirst (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Layer.run m ρ)
    obtain ⟨hx, ha, hw⟩ := Cert.Gcn.reals_of_pre _ _ _ (hpre c)
    exact Cert.Gcn.aggregateFirst_eq_transformFirst _ _ _ hx ha hw
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.ReferenceIdeal.Layer.result_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
